-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S256x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x128 : Shape := ⟨2, ![128, 128]⟩
abbrev S1x128 : Shape := ⟨2, ![1, 128]⟩
abbrev S1x1 : Shape := ⟨2, ![1, 1]⟩
abbrev S8000x128 : Shape := ⟨2, ![8000, 128]⟩
abbrev S8000x1 : Shape := ⟨2, ![8000, 1]⟩

abbrev nBuf : Space → Nat
  | .hbm => 37
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S100000x128, .bf16⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S128x128, .f32⟩
  | .hbm, ⟨30, _⟩ => ⟨S128x128, .bf16⟩
  | .hbm, ⟨31, _⟩ => ⟨S128x128, .f32⟩
  | .hbm, ⟨32, _⟩ => ⟨S128x128, .bf16⟩
  | .hbm, ⟨33, _⟩ => ⟨S1x128, .f32⟩
  | .hbm, ⟨34, _⟩ => ⟨S128x1, .bf16⟩
  | .hbm, ⟨35, _⟩ => ⟨S1x1, .f32⟩
  | .hbm, ⟨36, _⟩ => ⟨S800000x1, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x1, .bf16⟩
  | .local _ .vmem, ⟨8, _⟩ => ⟨S1x1, .f32⟩
  | .local _ .vmem, ⟨9, _⟩ => ⟨S8000x1, .f32⟩
  | .local _ .vmem, ⟨10, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  shapeCasts_S128_S1x128 : S128.ShapeCasts S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  gather_S100000x128_S800000x1_S800000x128_1_0_n_n_0_1_1128_wf : GatherDims.WF S100000x128 S800000x1 S800000x128 [1] [0] [] [0] [] 1 ![1, 128]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .bf16 = 32 ∨ (Rect.block (s := S128x1) S128x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x1.size a ≤ S800000x1.size a
  hwx0_7 : ∀ i : grid0.Coords, EltTy.bits .f32 = 32 ∨ (Rect.block (s := S800000x1) S8000x1.size (cc0_transform_7 i) (hinb0_7 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S8000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S128x128, .f32⟩
  | .hbm, ⟨11, _⟩ => ⟨S128x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x128, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S800000x1, .f32⟩
  | .hbm, ⟨40, _⟩ => ⟨S1x1, .f32⟩
  | .hbm, ⟨41, _⟩ => ⟨S800000x1, .f32⟩
  | .hbm, ⟨42, _⟩ => ⟨S800000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S256x128_S128x128_0_0 : S256x128.Slices ![0, 0] S128x128
  slices_S256x128_S128x128_128_0 : S256x128.Slices ![128, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  gather_S100000x128_S800000x1_S800000x128_1_0_n_n_0_1_1128_wf : GatherDims.WF S100000x128 S800000x1 S800000x128 [1] [0] [] [0] [] 1 ![1, 128]
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.EdgeScore.lean ====
/-
  The edge scorer as one function of its operands.

  An edge `e` has a source row `zs e` and a destination row `zd e` of 128 features each. The hidden layer of
  the edge is, at unit `k`,
    hidden e k = max (Σ_a zs(e, a) · w1s(a, k) + Σ_a zd(e, a) · w1d(a, k) + b1 k) 0,
  the two halves of the first weight matrix applied to the two endpoint rows, the bias added, the rectifier
  applied; the score of the edge is
    score e = Σ_k hidden e k · w2(k, 0) + b2.
  Everything is read on the extended reals: the sums are plain finite sums, and the rectifier's zero is kept as the
  float word both programs spell (it is never evaluated). The number of rows `E` is left open so that the same
  function describes one block of 8000 edges and the whole array of 800000.
-/
import Idealize.ShloMosaic.Lib.ValueIdx
import Idealize.ShloMosaic.PureOps.Ideal

noncomputable section

namespace Cert.EdgeScore

open Idealize.ShloMosaic Idealize.ShloMosaic.ValueIdx

/-- The hidden unit `k` of edge row `p`: both endpoint rows through their halves of the first layer, the bias,
    the rectifier. -/
def hidden {E : Nat} (zs zd : (⟨2, ![E, 128]⟩ : Shape).Idx → EReal) (w1s w1d : (⟨2, ![128, 128]⟩ : Shape).Idx → EReal)
    (b1 : Fin 128 → EReal) (p : Fin E) (k : Fin 128) : EReal :=
  max ((∑ a : Fin 128, zs (ix2 p a) * w1s (ix2 a k)) + (∑ a : Fin 128, zd (ix2 p a) * w1d (ix2 a k)) + b1 k)
    (Ideal.ofBits .f32 0x00000000#32)

/-- The score of edge row `p`, at the output's one column `j`: the hidden layer through the second layer's
    column, plus its bias. -/
def score {E : Nat} (zs zd : (⟨2, ![E, 128]⟩ : Shape).Idx → EReal) (w1s w1d : (⟨2, ![128, 128]⟩ : Shape).Idx → EReal)
    (b1 : Fin 128 → EReal) (w2 : (⟨2, ![128, 1]⟩ : Shape).Idx → EReal) (b2 : EReal) (p : Fin E) (j : Fin 1) : EReal :=
  (∑ k : Fin 128, hidden zs zd w1s w1d b1 p k * w2 (ix2 k j)) + b2

/-- The scores of all `E` edges as an `[E, 1]` array. -/
def scores {E : Nat} (zs zd : (⟨2, ![E, 128]⟩ : Shape).Idx → EReal) (w1s w1d : (⟨2, ![128, 128]⟩ : Shape).Idx → EReal)
    (b1 : Fin 128 → EReal) (w2 : (⟨2, ![128, 1]⟩ : Shape).Idx → EReal) (b2 : EReal) :
    (⟨2, ![E, 1]⟩ : Shape).Idx → EReal :=
  fun i => score zs zd w1s w1d b1 w2 b2 (i 0) (i 1)

theorem scores_ix2 {E : Nat} (zs zd : (⟨2, ![E, 128]⟩ : Shape).Idx → EReal) (w1s w1d : (⟨2, ![128, 128]⟩ : Shape).Idx → EReal)
    (b1 : Fin 128 → EReal) (w2 : (⟨2, ![128, 1]⟩ : Shape).Idx → EReal) (b2 : EReal) (p : Fin E) (j : Fin 1) :
    scores zs zd w1s w1d b1 w2 b2 (ix2 p j) = score zs zd w1s w1d b1 w2 b2 p j := rfl

/-- The score reads only row `p` of the two gathered arrays and column `j` of the second layer: two scores whose
    operands agree there are equal, whatever the number of rows around them. -/
theorem score_congr {E E' : Nat} (zs zd : (⟨2, ![E, 128]⟩ : Shape).Idx → EReal) (zs' zd' : (⟨2, ![E', 128]⟩ : Shape).Idx → EReal)
    (w1s w1d w1s' w1d' : (⟨2, ![128, 128]⟩ : Shape).Idx → EReal) (b1 b1' : Fin 128 → EReal)
    (w2 w2' : (⟨2, ![128, 1]⟩ : Shape).Idx → EReal) (b2 b2' : EReal) (p : Fin E) (p' : Fin E') (j j' : Fin 1)
    (hs : ∀ a : Fin 128, zs (ix2 p a) = zs' (ix2 p' a)) (hd : ∀ a : Fin 128, zd (ix2 p a) = zd' (ix2 p' a))
    (hw1s : w1s = w1s') (hw1d : w1d = w1d') (hb1 : b1 = b1')
    (hw2 : ∀ k : Fin 128, w2 (ix2 k j) = w2' (ix2 k j')) (hb2 : b2 = b2') :
    score zs zd w1s w1d b1 w2 b2 p j = score zs' zd' w1s' w1d' b1' w2' b2' p' j' := by
  subst hw1s hw1d hb1 hb2
  unfold score hidden
  simp only [hs, hd, hw2]

end Cert.EdgeScore

end
-- ==== Proof.BodyValue.lean ====
/-
  What one grid point's body computes, at the ideal instance, entry by entry.

  The body loads a block of 8000 source rows and 8000 destination rows, the two halves of the first layer, its
  bias row, the second layer's column and its bias, and stores one column of 8000 scores. Both matrix products
  start from a zero accumulator, so each is a plain sum over the 128 contracted features; the changes of float
  format are the identity on the extended reals; the bias row is repeated down the block. Hence the stored value at
  row `p` is the edge score of the block's row `p`.
-/
import proofs.«165316_j71511205478789_1_alg».proof.Proof.Gen.KernelIdeal.Skeleton
import proofs.«165316_j71511205478789_1_alg».proof.Proof.LibDot2
import proofs.«165316_j71511205478789_1_alg».proof.Proof.EdgeScore
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## The two dimension records: which coordinate is kept and which is contracted -/

theorem lhs_hid_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_hid_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_hid_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_hid_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

theorem lhs_out_0 (i : S8000x1.Idx) (q : dot_S8000x128_S128x1_S8000x1_1_0_0_1_n_n.contr.Idx) :
    (dot_S8000x128_S128x1_S8000x1_1_0_0_1_n_n.lhsIdx i q 0).val = (i 0).val := by
  unfold DotDims.lhsIdx
  rw [dif_neg (show ¬(0 : Fin S8000x128.rank) ∈ dot_S8000x128_S128x1_S8000x1_1_0_0_1_n_n.lhsBatch by decide), dif_pos (show (0 : Fin S8000x128.rank) ∈ dot_S8000x128_S128x1_S8000x1_1_0_0_1_n_n.lhsNonContracting by decide)]
  rfl
theorem lhs_out_1 (i : S8000x1.Idx) (q : dot_S8000x128_S128x1_S8000x1_1_0_0_1_n_n.contr.Idx) :
    (dot_S8000x128_S128x1_S8000x1_1_0_0_1_n_n.lhsIdx i q 1).val = (q ⟨0, by decide⟩).val :=
  dot_S8000x128_S128x1_S8000x1_1_0_0_1_n_n.lhsIdx_val_of_single rfl i q
theorem rhs_out_0 (i : S8000x1.Idx) (q : dot_S8000x128_S128x1_S8000x1_1_0_0_1_n_n.contr.Idx) :
    (dot_S8000x128_S128x1_S8000x1_1_0_0_1_n_n.rhsIdx i q 0).val = (q ⟨0, by decide⟩).val :=
  dot_S8000x128_S128x1_S8000x1_1_0_0_1_n_n.rhsIdx_val_of_single rfl i q
theorem rhs_out_1 (i : S8000x1.Idx) (q : dot_S8000x128_S128x1_S8000x1_1_0_0_1_n_n.contr.Idx) :
    (dot_S8000x128_S128x1_S8000x1_1_0_0_1_n_n.rhsIdx i q 1).val = (i 1).val := by
  unfold DotDims.rhsIdx
  rw [dif_neg (show ¬(1 : Fin S128x1.rank) ∈ dot_S8000x128_S128x1_S8000x1_1_0_0_1_n_n.rhsBatch by decide), dif_pos (show (1 : Fin S128x1.rank) ∈ dot_S8000x128_S128x1_S8000x1_1_0_0_1_n_n.rhsNonContracting by decide)]
  rfl

/-- A first-layer product of the block, at row `p` and hidden unit `k`: the sum over the 128 features. -/
theorem hid_product (l : FVec Ideal S8000x128 .bf16) (r : FVec Ideal S128x128 .bf16) (p : Fin 8000) (k : Fin 128) :
    matmul dot_S8000x128_S128x128_S8000x128_1_0_0_1_n_n none l r (constant (F := Ideal) S8000x128 .f32 0x00000000#32) (ix2 p k)
      = ∑ a : Fin 128, l (ix2 p a) * r (ix2 a k) :=
  Cert.Lib.Dot2.matmul_zero_ix2 dot_S8000x128_S128x128_S8000x128_1_0_0_1_n_n none rfl rfl lhs_hid_0 lhs_hid_1 rhs_hid_0 rhs_hid_1 l r p k

/-- The second-layer product of the block, at row `p` and the one output column: the sum over the 128 hidden units. -/
theorem out_product (l : FVec Ideal S8000x128 .bf16) (r : FVec Ideal S128x1 .bf16) (p : Fin 8000) (j : Fin 1) :
    matmul dot_S8000x128_S128x1_S8000x1_1_0_0_1_n_n none l r (constant (F := Ideal) S8000x1 .f32 0x00000000#32) (ix2 p j)
      = ∑ k : Fin 128, l (ix2 p k) * r (ix2 k j) :=
  Cert.Lib.Dot2.matmul_zero_ix2 dot_S8000x128_S128x1_S8000x1_1_0_0_1_n_n none rfl rfl lhs_out_0 lhs_out_1 rhs_out_0 rhs_out_1 l r p j

/-- The one bias entry repeated down the output column. -/
theorem bias2_apply (v : (⟨2, ![1, 1]⟩ : Shape).Idx → EReal) (h : (⟨2, ![1, 1]⟩ : Shape).Broadcasts ⟨2, ![8000, 1]⟩)
    (p : Fin 8000) (j : Fin 1) : broadcastTo ⟨2, ![8000, 1]⟩ v h (ix2 p j) = v (ix2 (0 : Fin 1) (0 : Fin 1)) :=
  broadcastTo_apply v h (ix2 p j) (ix2 (0 : Fin 1) (0 : Fin 1)) fun ax => by
    match ax with
    | ⟨0, _⟩ => rfl
    | ⟨1, _⟩ => rfl

/-- THE BODY'S STORED VALUE at row `p`: the edge score of the block's row `p`. -/
theorem pay_apply (x0 x1 : Vec Ideal S8000x128 .bf16) (x2 x3 : Vec Ideal S128x128 .bf16) (x4 : Vec Ideal S1x128 .f32)
    (x5 : Vec Ideal S128x1 .bf16) (x6 : Vec Ideal S1x1 .f32) (p : Fin 8000) (j : Fin 1) :
    k0_pay1 (F := Ideal) x0 x1 x2 x3 x4 x5 x6 (ix2 p j)
      = Cert.EdgeScore.score x0 x1 x2 x3 (fun k => x4 (ix2 (0 : Fin 1) k)) x5 (x6 (ix2 (0 : Fin 1) (0 : Fin 1))) p j := by
  unfold k0_pay1 Cert.EdgeScore.score
  simp only [shapeCast_self]
  rw [addf_apply, out_product, bias2_apply]
  refine congrArg (· + x6 (ix2 (0 : Fin 1) (0 : Fin 1))) (Finset.sum_congr rfl fun k _ => ?_)
  refine congrArg (· * x5 (ix2 k j)) ?_
  unfold Cert.EdgeScore.hidden
  rw [truncf_apply, maximumf_apply, addf_apply, addf_apply, hid_product, hid_product, broadcastTo_1b_ab_apply,
    broadcast_apply]
  rfl

end Cert.KernelIdeal.BodyValue

end
-- ==== Proof.RegionArrays.lean ====
/-
  The arrays the kernel region finds, as functions of the arguments, at the ideal instance.

  Before the region the host takes each row of the edge list, wraps its negative entries by the table's length,
  and gathers the table's rows at them; it cuts the first layer's matrix into its two halves and gives the bias
  vectors a leading unit axis. The changes of float format in between are the identity on the extended reals, so
  each array is the named function of the arguments below.
-/
import proofs.«165316_j71511205478789_1_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.RegionArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- One row of the edge list as a column of start indices: an entry below zero is moved up by the table's 100000
    rows, as array indexing from the end asks. -/
def wrappedRow (ei : IVec S2x800000 32) (off : Fin 2 → Nat) (h : S2x800000.Slices off S1x800000) : IVec S800000x1 32 :=
  broadcastInDim S800000x1 ![0] bcast_S800000_S800000x1_0
    (select
      (cmpi .slt (shapeCast S800000 (extractStridedSlice S1x800000 off ei h) shapeCasts_S1x800000_S800000)
        (broadcastInDim S800000 ![] bcast_S_S800000 (constantI S_ 32 0#32)))
      (addi (shapeCast S800000 (extractStridedSlice S1x800000 off ei h) shapeCasts_S1x800000_S800000)
        (broadcastInDim S800000 ![] bcast_S_S800000 (constantI S_ 32 100000#32)))
      (shapeCast S800000 (extractStridedSlice S1x800000 off ei h) shapeCasts_S1x800000_S800000))

/-- The table's rows at the edges' sources. -/
def srcRows (c : Dev nD) : S800000x128.Idx → EReal :=
  Host.gather gather_S100000x128_S800000x1_S800000x128_1_0_n_n_0_1_1128 (m ((c : Thread nD τ).loc main_arg0))
    (wrappedRow (m ((c : Thread nD τ).loc main_arg1)) ![0, 0] slices_S2x800000_S1x800000_0_0)

/-- The table's rows at the edges' destinations. -/
def dstRows (c : Dev nD) : S800000x128.Idx → EReal :=
  Host.gather gather_S100000x128_S800000x1_S800000x128_1_0_n_n_0_1_1128 (m ((c : Thread nD τ).loc main_arg0))
    (wrappedRow (m ((c : Thread nD τ).loc main_arg1)) ![1, 0] slices_S2x800000_S1x800000_1_0)

/-- The half of the first layer that meets the source rows. -/
def w1Src (c : Dev nD) : S128x128.Idx → EReal :=
  extractStridedSlice S128x128 ![0, 0] (m ((c : Thread nD τ).loc main_arg2)) slices_S256x128_S128x128_0_0

/-- The half of the first layer that meets the destination rows. -/
def w1Dst (c : Dev nD) : S128x128.Idx → EReal :=
  extractStridedSlice S128x128 ![128, 0] (m ((c : Thread nD τ).loc main_arg2)) slices_S256x128_S128x128_128_0

set_option maxHeartbeats 1000000 in
theorem V_src (c : Dev nD) : (V m c main_v11 : S800000x128.Idx → EReal) = srcRows m c := by
  unfold srcRows wrappedRow
  dsimp only [V, hostOps0]
  after_results_simp
  rfl

set_option maxHeartbeats 1000000 in
theorem V_dst (c : Dev nD) : (V m c main_v18 : S800000x128.Idx → EReal) = dstRows m c := by
  unfold dstRows wrappedRow
  dsimp only [V, hostOps0]
  after_results_simp
  rfl

set_option maxHeartbeats 1000000 in
theorem V_w1Src (c : Dev nD) : (V m c main_v20 : S128x128.Idx → EReal) = w1Src m c := by
  unfold w1Src
  dsimp only [V, hostOps0]
  after_results_simp
  rfl

set_option maxHeartbeats 1000000 in
theorem V_w1Dst (c : Dev nD) : (V m c main_v22 : S128x128.Idx → EReal) = w1Dst m c := by
  unfold w1Dst
  dsimp only [V, hostOps0]
  after_results_simp
  rfl

set_option maxHeartbeats 1000000 in
theorem V_b1 (c : Dev nD) : (V m c main_v23 : S1x128.Idx → EReal)
    = shapeCast S1x128 (m ((c : Thread nD τ).loc main_arg3)) shapeCasts_S128_S1x128 := by
  dsimp only [V, hostOps0]
  after_results_simp
  rfl

set_option maxHeartbeats 1000000 in
theorem V_w2 (c : Dev nD) : (V m c main_v24 : S128x1.Idx → EReal) = m ((c : Thread nD τ).loc main_arg4) := by
  dsimp only [V, hostOps0]
  after_results_simp
  rfl

set_option maxHeartbeats 1000000 in
theorem V_b2 (c : Dev nD) : (V m c main_v25 : S1x1.Idx → EReal)
    = shapeCast S1x1 (m ((c : Thread nD τ).loc main_arg5)) shapeCasts_S1_S1x1 := by
  dsimp only [V, hostOps0]
  after_results_simp
  rfl

end Cert.KernelIdeal.RegionArrays

end
-- ==== Proof.ScoreArray.lean ====
/-
  From the blocks to the whole array of scores.

  Grid point `t` works on edges `8000·t … 8000·t + 7999`: it is handed block `t` of the gathered source rows and of
  the gathered destination rows, and the whole of each small operand, and writes back block `t` of the output
  column. Row `p` of what it writes is the edge score of row `p` of its blocks, which is the edge score of row
  `8000·t + p` of the whole arrays. The hundred blocks tile the 800000 edges, so after the run the output array is
  the edge score of the arrays the region found; and those arrays are the gathered rows, the halves of the first
  layer and the bias vectors of the arguments.
-/
import proofs.«165316_j71511205478789_1_alg».proof.Proof.Gen.KernelIdeal.Value
import proofs.«165316_j71511205478789_1_alg».proof.Proof.BodyValue
import proofs.«165316_j71511205478789_1_alg».proof.Proof.RegionArrays
import proofs.«165316_j71511205478789_1_alg».proof.Proof.EdgeScore
import Idealize.ShloMosaic.Lib.Pipeline.Value
import Idealize.ShloMosaic.Lib.ValueIdx
import Idealize.ShloMosaic.Lib.ValueLayout

set_option maxRecDepth 16384

noncomputable section

namespace Cert.KernelIdeal.ScoreArray

open Cert.KernelIdeal Cert.KernelIdeal.Gen Idealize.ShloMosaic Idealize.ShloMosaic.TcCoe Idealize.SL.Sem
open Idealize.ShloMosaic.ValueIdx Cert.KernelIdeal.RegionArrays
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The edge scores of the arrays the region finds. -/
def regionScores (c : Dev nD) : S800000x1.Idx → EReal :=
  Cert.EdgeScore.scores (V m c main_v11 : S800000x128.Idx → EReal) (V m c main_v18 : S800000x128.Idx → EReal)
    (V m c main_v20 : S128x128.Idx → EReal) (V m c main_v22 : S128x128.Idx → EReal)
    (fun k => (V m c main_v23 : S1x128.Idx → EReal) (ix2 (0 : Fin 1) k)) (V m c main_v24 : S128x1.Idx → EReal)
    ((V m c main_v25 : S1x1.Idx → EReal) (ix2 (0 : Fin 1) (0 : Fin 1)))

/-- The printed index maps over the hundred grid points: the two row windows move with the output window along the
    edges and stay at column block zero; every small operand stays at its one block. -/
theorem index_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 99 :=
  (by decide +kernel : ∀ t : Fin grid0.N, _)

/-- Every one of the hundred row blocks of the output is some point's. -/
theorem index_onto : ∀ q : Fin 100, ∃ t : Fin cfg0.N, win0_7.index t = ![q.val, 0] :=
  (by decide +kernel : ∀ q : Fin 100, ∃ t : Fin grid0.N, win0_7.index t = ![q.val, 0])

/-- WHAT POINT `t` WRITES BACK is block `t` of the edge scores of the region's arrays. -/
theorem flushed_eq (c : Dev nD) (t : Fin cfg0.N) :
    (dats m 0 c).flushed 7 t = ((cfg0.win 7).blk t).view.read (Elt Ideal) (regionScores m c) := by
  rw [Cert.KernelIdeal.Value.flushed7]
  unfold out0_7
  rw [View.canon_unit_zero origin_zero]
  simp only [View.ld_unit_zero (S := S8000x128) origin_zero, View.ld_unit_zero (S := S128x128) origin_zero,
    View.ld_unit_zero (S := S1x128) origin_zero, View.ld_unit_zero (S := S128x1) origin_zero,
    View.ld_unit_zero (S := S1x1) origin_zero]
  obtain ⟨e00, e01, e10, e11, e20, e21, e30, e31, e40, e41, e50, e51, e60, e61, e71, e70⟩ := index_facts t
  funext y
  obtain ⟨p, j, rfl⟩ : ∃ (p : Fin 8000) (j : Fin 1), y = ix2 p j := ⟨y 0, y 1, eq_ix2 y⟩
  show k0_pay1 (F := Ideal) (iblk m c 0 t) (iblk m c 1 t) (iblk m c 2 t) (iblk m c 3 t) (iblk m c 4 t) (iblk m c 5 t) (iblk m c 6 t) (ix2 p j)
    = regionScores m c (((cfg0.win 7).blk t).view.emb (ix2 p j))
  refine (Cert.KernelIdeal.BodyValue.pay_apply (iblk m c 0 t) (iblk m c 1 t) (iblk m c 2 t) (iblk m c 3 t) (iblk m c 4 t)
    (iblk m c 5 t) (iblk m c 6 t) p j).trans ?_
  show _ = Cert.EdgeScore.score (V m c main_v11 : S800000x128.Idx → EReal) (V m c main_v18 : S800000x128.Idx → EReal)
    (V m c main_v20 : S128x128.Idx → EReal) (V m c main_v22 : S128x128.Idx → EReal)
    (fun k => (V m c main_v23 : S1x128.Idx → EReal) (ix2 (0 : Fin 1) k)) (V m c main_v24 : S128x1.Idx → EReal)
    ((V m c main_v25 : S1x1.Idx → EReal) (ix2 (0 : Fin 1) (0 : Fin 1)))
    ((((cfg0.win 7).blk t).view.emb (ix2 p j)) 0) ((((cfg0.win 7).blk t).view.emb (ix2 p j)) 1)
  refine Cert.EdgeScore.score_congr _ _ _ _ _ _ _ _ _ _ _ _ _ _ p _ j _ ?_ ?_ ?_ ?_ ?_ ?_ ?_
  · -- the source rows: row `p` of block `t` is row `8000·t + p` of the array
    intro a
    show (V m c main_v11 : S800000x128.Idx → EReal) (((cfg0.win 0).blk t).view.emb (ix2 p a)) = _
    refine congrArg (V m c main_v11 : S800000x128.Idx → EReal) (funext fun d => Fin.ext ?_)
    match d with
    | ⟨0, _⟩ => show win0_0.index t (0 : Fin 2) * 8000 + 1 * p.val = win0_7.index t (0 : Fin 2) * 8000 + 1 * p.val; omega
    | ⟨1, _⟩ => show win0_0.index t (1 : Fin 2) * 128 + 1 * a.val = a.val; omega
  · -- the destination rows, likewise
    intro a
    show (V m c main_v18 : S800000x128.Idx → EReal) (((cfg0.win 1).blk t).view.emb (ix2 p a)) = _
    refine congrArg (V m c main_v18 : S800000x128.Idx → EReal) (funext fun d => Fin.ext ?_)
    match d with
    | ⟨0, _⟩ => show win0_1.index t (0 : Fin 2) * 8000 + 1 * p.val = win0_7.index t (0 : Fin 2) * 8000 + 1 * p.val; omega
    | ⟨1, _⟩ => show win0_1.index t (1 : Fin 2) * 128 + 1 * a.val = a.val; omega
  · -- the first layer's source half: its one block is the whole matrix
    funext y
    show (V m c main_v20 : S128x128.Idx → EReal) (((cfg0.win 2).blk t).view.emb y) = _
    refine congrArg (V m c main_v20 : S128x128.Idx → EReal) (funext fun d => Fin.ext ?_)
    match d with
    | ⟨0, _⟩ => show win0_2.index t (0 : Fin 2) * 128 + 1 * (y 0).val = (y 0).val; omega
    | ⟨1, _⟩ => show win0_2.index t (1 : Fin 2) * 128 + 1 * (y 1).val = (y 1).val; omega
  · -- the first layer's destination half
    funext y
    show (V m c main_v22 : S128x128.Idx → EReal) (((cfg0.win 3).blk t).view.emb y) = _
    refine congrArg (V m c main_v22 : S128x128.Idx → EReal) (funext fun d => Fin.ext ?_)
    match d with
    | ⟨0, _⟩ => show win0_3.index t (0 : Fin 2) * 128 + 1 * (y 0).val = (y 0).val; omega
    | ⟨1, _⟩ => show win0_3.index t (1 : Fin 2) * 128 + 1 * (y 1).val = (y 1).val; omega
  · -- the first bias row
    funext k
    show (V m c main_v23 : S1x128.Idx → EReal) (((cfg0.win 4).blk t).view.emb (ix2 (0 : Fin 1) k)) = _
    refine congrArg (V m c main_v23 : S1x128.Idx → EReal) (funext fun d => Fin.ext ?_)
    match d with
    | ⟨0, _⟩ => show win0_4.index t (0 : Fin 2) * 1 + 1 * 0 = 0; omega
    | ⟨1, _⟩ => show win0_4.index t (1 : Fin 2) * 128 + 1 * k.val = k.val; omega
  · -- the second layer's column
    intro k
    show (V m c main_v24 : S128x1.Idx → EReal) (((cfg0.win 5).blk t).view.emb (ix2 k j)) = _
    refine congrArg (V m c main_v24 : S128x1.Idx → EReal) (funext fun d => Fin.ext ?_)
    match d with
    | ⟨0, _⟩ => show win0_5.index t (0 : Fin 2) * 128 + 1 * k.val = k.val; omega
    | ⟨1, _⟩ => show win0_5.index t (1 : Fin 2) * 1 + 1 * j.val = win0_7.index t (1 : Fin 2) * 1 + 1 * j.val; omega
  · -- the second bias
    show (V m c main_v25 : S1x1.Idx → EReal) (((cfg0.win 6).blk t).view.emb (ix2 (0 : Fin 1) (0 : Fin 1))) = _
    refine congrArg (V m c main_v25 : S1x1.Idx → EReal) (funext fun d => Fin.ext ?_)
    match d with
    | ⟨0, _⟩ => show win0_6.index t (0 : Fin 2) * 1 + 1 * 0 = 0; omega
    | ⟨1, _⟩ => show win0_6.index t (1 : Fin 2) * 1 + 1 * 0 = 0; omega

/-- An edge index is in point `t`'s block iff each coordinate is in the block's range on its axis. -/
theorem mem_block (t : Fin cfg0.N) (i : S800000x1.Idx) :
    i ∈ ((cfg0.win 7).blk t).view.set ↔ ∀ a : Fin 2, win0_7.index t a * S8000x1.size a ≤ (i a).val ∧ (i a).val < win0_7.index t a * S8000x1.size a + S8000x1.size a := by
  show i ∈ ((View.whole main_v26).slice (win0_7.rect t)).set ↔ _
  rw [View.set_slice_whole, Rect.mem_set_unit]
  exact Iff.rfl

/-- THE BLOCKS TILE THE EDGES: edge `e` is in the block of point `e / 8000`, which writes back. -/
theorem covered (i : S800000x1.Idx) :
    ∃ t : Fin cfg0.N, (cfg0.win 7).flush t = true ∧ i ∈ ((cfg0.win 7).blk t).view.set := by
  have hi0 : (i 0).val < 800000 := (i 0).isLt
  have hi1 : (i 1).val < 1 := (i 1).isLt
  obtain ⟨t, ht⟩ := index_onto ⟨(i 0).val / 8000, by omega⟩
  have q0 : win0_7.index t (0 : Fin 2) = (i 0).val / 8000 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 1 ≤ (i 1).val ∧ (i 1).val < win0_7.index t (1 : Fin 2) * 1 + 1; omega

/-- THE OUTPUT ARRAY after the run: the edge scores of the region's arrays. -/
theorem final (c : Dev nD) : (dats m 0 c).arrAt 7 cfg0.N = regionScores m c :=
  (dats m 0 c).arrAt_eq_of_cover 7 (regionScores m c) (fun t _ => flushed_eq m c t) covered

/-- The edge scores as a function of the arguments: the table's rows gathered at the wrapped endpoints of every
    edge, the two halves of the first layer, the bias vectors. -/
def argScores (c : Dev nD) : S800000x1.Idx → EReal :=
  Cert.EdgeScore.scores (srcRows m c) (dstRows m c) (w1Src m c) (w1Dst m c)
    (fun k => (m ((c : Thread nD τ).loc main_arg3) : S128.Idx → EReal) (ix1 k))
    (m ((c : Thread nD τ).loc main_arg4) : S128x1.Idx → EReal)
    ((m ((c : Thread nD τ).loc main_arg5) : S1.Idx → EReal) (ix1 (0 : Fin 1)))

/-- The region's arrays are those functions of the arguments; a bias vector given a leading unit axis is read at
    row zero. -/
theorem regionScores_eq (c : Dev nD) : regionScores m c = argScores m c := by
  unfold regionScores argScores
  rw [V_src, V_dst, V_w1Src, V_w1Dst, V_b1, V_w2, V_b2]
  simp only [shapeCast_a_1a_apply]

/-- THE KERNEL'S RUN, READ: the output array ends at the edge scores of the arguments, the arguments unchanged. -/
theorem run : θ_run defs (onTc (τ := τ) (main (F := Ideal))) ⟨m, fun _ => 0, ρ⟩ fun r => ∀ c : Dev nD,
      r.2.mem ((c : Thread nD τ).loc main_v26) = argScores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (regionScores_eq m c)), (h c).2⟩)
    (Cert.KernelIdeal.Value.run_blocks m ρ)

end Cert.KernelIdeal.ScoreArray

end
-- ==== Proof.RefScore.lean ====
/-
  The reference's result is the edge score, entry by entry.

  The reference gathers the source and the destination rows of every edge, multiplies each by its half of the
  first layer, adds the two products and the bias, applies the rectifier, multiplies by the second layer and adds
  its bias. Read one operation at a time at an index, this is the edge score of the gathered rows: the host's
  matrix products are plain sums over the 128 contracted features, and the bias vectors are repeated along the
  edges.
-/
import proofs.«165316_j71511205478789_1_alg».proof.Proof.Gen.ReferenceIdeal.Read
import proofs.«165316_j71511205478789_1_alg».proof.Proof.EdgeScore
import Idealize.ShloMosaic.Lib.ValueIdx

noncomputable section

namespace Cert.ReferenceIdeal.RefScore

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S2x800000, .i32⟩ : BufTy).Contents (Elt Ideal))
  (x2 : (⟨S256x128, .f32⟩ : BufTy).Contents (Elt Ideal)) (x3 : (⟨S128, .f32⟩ : BufTy).Contents (Elt Ideal))
  (x4 : (⟨S128x1, .f32⟩ : BufTy).Contents (Elt Ideal)) (x5 : (⟨S1, .f32⟩ : BufTy).Contents (Elt Ideal))

/-- The reference's rectified hidden layer at edge `p` and unit `k`. -/
theorem hidden_eq (p : Fin 800000) (k : Fin 128) :
    val_main_v26 (F := Ideal) x0 x1 x2 x3 (ix2 p k)
      = Cert.EdgeScore.hidden (val_main_v12 (F := Ideal) x0 x1) (val_main_v20 (F := Ideal) x0 x1)
          (val_main_v4 (F := Ideal) x2) (val_main_v5 (F := Ideal) x2) (fun k => x3 (ix1 k)) p k := by
  have el13 : ∀ a : Fin 128, lidx_main_v13 (ix2 p k) a = ix2 p a := fun a => funext fun d => Fin.ext (by
    match d with
    | ⟨0, _⟩ => rfl
    | ⟨1, _⟩ => rfl)
  have er13 : ∀ a : Fin 128, ridx_main_v13 (ix2 p k) a = ix2 a k := fun a => funext fun d => Fin.ext (by
    match d with
    | ⟨0, _⟩ => rfl
    | ⟨1, _⟩ => rfl)
  have el21 : ∀ a : Fin 128, lidx_main_v21 (ix2 p k) a = ix2 p a := fun a => funext fun d => Fin.ext (by
    match d with
    | ⟨0, _⟩ => rfl
    | ⟨1, _⟩ => rfl)
  have er21 : ∀ a : Fin 128, ridx_main_v21 (ix2 p k) a = ix2 a k := fun a => funext fun d => Fin.ext (by
    match d with
    | ⟨0, _⟩ => rfl
    | ⟨1, _⟩ => rfl)
  have eb : idx_main_v23 (idx_main_v24 (ix2 p k)) = ix1 k := funext fun d => Fin.ext (by
    match d with
    | ⟨0, _⟩ => rfl)
  unfold Cert.EdgeScore.hidden
  rw [val_main_v26_apply, val_main_v25_apply, val_main_v22_apply, val_main_v13_apply, val_main_v21_apply,
    val_main_v24_apply, val_main_v23_apply, val_main_call0_v0_apply, val_main_call0_cst_apply]
  simp only [el13, er13, el21, er21, eb]
  rfl

/-- THE REFERENCE'S RESULT: the edge scores of the gathered rows. -/
theorem result_eq :
    val_main_v30 (F := Ideal) x0 x1 x2 x3 x4 x5
      = Cert.EdgeScore.scores (val_main_v12 (F := Ideal) x0 x1) (val_main_v20 (F := Ideal) x0 x1)
          (val_main_v4 (F := Ideal) x2) (val_main_v5 (F := Ideal) x2) (fun k => x3 (ix1 k)) x4 (x5 (ix1 (0 : Fin 1))) := by
  funext i
  obtain ⟨p, j, rfl⟩ : ∃ (p : Fin 800000) (j : Fin 1), i = ix2 p j := ⟨i 0, i 1, eq_ix2 i⟩
  have el : ∀ k : Fin 128, lidx_main_v27 (ix2 p j) k = ix2 p k := fun k => funext fun d => Fin.ext (by
    match d with
    | ⟨0, _⟩ => rfl
    | ⟨1, _⟩ => rfl)
  have er : ∀ k : Fin 128, ridx_main_v27 (ix2 p j) k = ix2 k j := fun k => funext fun d => Fin.ext (by
    match d with
    | ⟨0, _⟩ => rfl
    | ⟨1, _⟩ => rfl)
  have eb : idx_main_v28 (idx_main_v29 (ix2 p j)) = ix1 (0 : Fin 1) := funext fun d => Fin.ext (by
    match d with
    | ⟨0, _⟩ => rfl)
  rw [Cert.EdgeScore.scores_ix2]
  unfold Cert.EdgeScore.score
  rw [val_main_v30_apply, val_main_v27_apply, val_main_v29_apply, val_main_v28_apply, eb]
  simp only [el, er, hidden_eq]
  rfl

end Cert.ReferenceIdeal.RefScore

end
-- ==== Proof.lean ====
/-
  An edge decoder: for each of 800000 edges, the rows of a 100000 × 128 node table at the edge's two endpoints go
  through a two-layer perceptron,
    score e = Σ_k max (Σ_a z(src e, a) · W1(a, k) + Σ_a z(dst e, a) · W1(128 + a, k) + b1 k) 0 · W2(k, 0) + b2.
  The kernel gathers the endpoint rows on the host and runs the perceptron over a grid of 100 blocks of 8000 edges;
  the reference gathers the same rows and applies the two layers to the whole arrays. On the extended reals the two
  compute one function: the kernel's matrix products into a zero accumulator and the reference's products are the
  same finite sums, taken in the same order of operations, the changes of float format are the identity, and a block
  of edges sees exactly its own rows. No law that needs finite operands is used, so the precondition is never opened.

  The pieces: the edge score as one function (EdgeScore); the kernel body's stored value at an entry (BodyValue);
  the arrays the kernel region finds as functions of the arguments (RegionArrays); the output array assembled from
  the blocks (ScoreArray); the reference's result read at an entry (RefScore). Both programs wrap negative edge
  entries and gather with the same operations, so the gathered rows are the same terms of the arguments.
-/
import proofs.«165316_j71511205478789_1_alg».proof.Defs
import proofs.«165316_j71511205478789_1_alg».proof.Proof.Gen.Kernel
import proofs.«165316_j71511205478789_1_alg».proof.Proof.Gen.Kernel.Skeleton
import proofs.«165316_j71511205478789_1_alg».proof.Proof.Gen.Kernel.Launch
import proofs.«165316_j71511205478789_1_alg».proof.Proof.Gen.Kernel.Points
import proofs.«165316_j71511205478789_1_alg».proof.Proof.Gen.Kernel.Frame
import proofs.«165316_j71511205478789_1_alg».proof.Proof.Gen.KernelIdeal
import proofs.«165316_j71511205478789_1_alg».proof.Proof.Gen.KernelIdeal.Skeleton
import proofs.«165316_j71511205478789_1_alg».proof.Proof.Gen.KernelIdeal.Launch
import proofs.«165316_j71511205478789_1_alg».proof.Proof.Gen.KernelIdeal.Points
import proofs.«165316_j71511205478789_1_alg».proof.Proof.Gen.KernelIdeal.Frame
import proofs.«165316_j71511205478789_1_alg».proof.Proof.Gen.ReferenceIdeal
import proofs.«165316_j71511205478789_1_alg».proof.Proof.Gen.Pre_finite_inputs
import proofs.«165316_j71511205478789_1_alg».proof.Proof.Gen.KernelIdeal.Value
import proofs.«165316_j71511205478789_1_alg».proof.Proof.Gen.ReferenceIdeal.Run
import proofs.«165316_j71511205478789_1_alg».proof.Proof.Gen.ReferenceIdeal.Read
import proofs.«165316_j71511205478789_1_alg».proof.Proof.ScoreArray
import proofs.«165316_j71511205478789_1_alg».proof.Proof.RefScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: it runs as its host operations, and its arguments are never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The gathered rows, the halves of the first layer and the bias vectors are the same functions of the arguments
    in both programs, so the reference's edge scores are the kernel's. -/
theorem scores_agree (m : (ℓ : Loc Cert.KernelIdeal.nD Cert.KernelIdeal.τ Cert.KernelIdeal.sig) → Buf (Elt Ideal) ℓ)
    (c : Dev Cert.KernelIdeal.nD) :
    Cert.ReferenceIdeal.Read.val_main_v30 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.ScoreArray.argScores m c := by
  rw [Cert.ReferenceIdeal.RefScore.result_eq]
  rfl

/-- At the ideal instance both programs end with the edge scores of the arguments. -/
theorem algebraic : Cert.algebraic_KernelIdeal_ReferenceIdeal := by
  intro m ρ m' ρ' _ hagree
  refine ⟨fun c => Cert.KernelIdeal.ScoreArray.argScores m c, Cert.KernelIdeal.ScoreArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5, Cert.ReferenceIdeal.Read.val_main_v30_eq]
  exact scores_agree m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
